-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 50
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibColumnBroadcast.lean ====
/-
  A column broadcast along rows, read at an index.

  An array of shape [a, 1], one value per row, broadcast to [a, b] holds at (p, c) the value of row p, whatever the
  column c. This is the "keepdims" form in which a per-row scale (a reciprocal count, a norm, a row maximum) meets
  the rows it scales. The companion form, one row [1, b] broadcast over a rows, is the library's
  `broadcastTo_1b_ab_apply`.
-/
import Idealize.ShloMosaic.Lib.Pipeline.Value
import Idealize.ShloMosaic.Lib.ValueIdx

namespace Idealize.ShloMosaic.ValueIdx

variable {α : Type}

/-- An `[a, 1]` array broadcast to `[a, b]` reads, at `(p, c)`, the operand's one column at row `p`. On the row
    axis the operand's coordinate is the result's (when `a = 1` both are `0`); on the column axis the operand has
    extent one, so its coordinate is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SageTile.lean ====
/-
  One grid point's output tile, entry by entry.

  At a grid point the kernel body holds a tile of 5000 rows of node features `x0`, the same rows of the neighbour
  sums `x1`, those rows' reciprocal in-degrees `x2` as a column, the two 128-by-128 weight matrices `x3`, `x4`
  whole, and the bias `x5` whole. It scales each row of `x1` by its entry of `x2`, multiplies the features by `x3`
  and the scaled sums by `x4` (each product accumulated from zero, so each is the plain sum over the 128 shared
  features), adds the two products, then the bias along every row. Over the extended reals the narrowing of the
  matrix products' operands to a shorter float format changes nothing. The first layer's body ends with the larger
  of that value and zero; the second layer's body stores the value as it is.
-/
import proofs.«161718_j77506979824092_1_alg».proof.Proof.Gen.KernelIdeal.Skeleton
import proofs.«161718_j77506979824092_1_alg».proof.Proof.LibColumnBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The tile's matrix product: which operand entries meet at an output entry -/

/-- The left operand's row is the output's row. -/
theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the shared feature. -/
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the shared feature. -/
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000-row tile times a weight matrix, accumulated from zero, at row `p` and column `q`: the sum over the 128
    shared features of the tile's row against the matrix's column. -/
theorem tileDot (l : FVec Ideal S5000x128 .bf16) (w : FVec Ideal S128x128 .bf16) (p : Fin 5000) (q : Fin 128) :
    matmul dot_S5000x128_S128x128_S5000x128_1_0_0_1_n_n none l w (constant (F := Ideal) S5000x128 .f32 0x00000000#32) (ix2 p q)
      = ∑ k : Fin 128, l (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-! ## The tile's value -/

/-- The value both bodies compute at row `p`, column `q` of the tile, before any activation. -/
def tileLinear (x0 x1 : Vec Ideal S5000x128 .f32) (x2 : Vec Ideal S5000x1 .f32) (x3 x4 : Vec Ideal S128x128 .f32)
    (x5 : Vec Ideal S128 .f32) (p : Fin 5000) (q : Fin 128) : EReal :=
  ((∑ k : Fin 128, x0 (ix2 p k) * x3 (ix2 k q))
    + ∑ k : Fin 128, (x1 (ix2 p k) * x2 (ix2 p (0 : Fin 1))) * x4 (ix2 k q)) + x5 (ix1 q)

/-- The second layer's body stores the tile's value as it is. -/
theorem pay1_at (x0 x1 : Vec Ideal S5000x128 .f32) (x2 : Vec Ideal S5000x1 .f32) (x3 x4 : Vec Ideal S128x128 .f32)
    (x5 : Vec Ideal S128 .f32) (p : Fin 5000) (q : Fin 128) :
    k1_pay1 (F := Ideal) x0 x1 x2 x3 x4 x5 (ix2 p q) = tileLinear x0 x1 x2 x3 x4 x5 p q := by
  unfold k1_pay1 tileLinear
  rw [addf_apply, addf_apply, tileDot, tileDot, broadcastTo_1b_ab_apply, shapeCast_a_1a_apply]
  simp only [truncf_apply, mulf_apply, shapeCast_self, broadcastTo_a1_ab_apply]

/-- The first layer's body stores the larger of the tile's value and zero. -/
theorem pay0_at (x0 x1 : Vec Ideal S5000x128 .f32) (x2 : Vec Ideal S5000x1 .f32) (x3 x4 : Vec Ideal S128x128 .f32)
    (x5 : Vec Ideal S128 .f32) (p : Fin 5000) (q : Fin 128) :
    k0_pay1 (F := Ideal) x0 x1 x2 x3 x4 x5 (ix2 p q) = max (tileLinear x0 x1 x2 x3 x4 x5 p q) 0 := by
  unfold k0_pay1 tileLinear
  rw [maximumf_apply, addf_apply, addf_apply, tileDot, tileDot, broadcastTo_1b_ab_apply, shapeCast_a_1a_apply]
  simp only [truncf_apply, mulf_apply, shapeCast_self, broadcastTo_a1_ab_apply, broadcast_apply,
    Ideal.ofBits_def, Ideal.ofBits_zero_f32]

end Cert.KernelIdeal.Tile

end
-- ==== Proof.SageSpec.lean ====
/-
  Two layers of a mean-aggregating graph convolution, as whole-array functions over the extended reals.

  One layer maps node features `h` (100000 nodes, 128 features each), the neighbour sums `agg` (same shape) and the
  reciprocal in-degrees `inv` (one per node) to

      out[r, c] = ( sum_k h[r, k] * ws[k, c]  +  sum_k (agg[r, k] * inv[r]) * wn[k, c] ) + b[c].

  The grouping is the one both programs compute in: the two products first, their sum, then the bias. Nothing is
  rearranged, so no law of the extended reals beyond reading each operation at an index is needed, and the inputs'
  finiteness is never used.
-/
import Idealize.ShloMosaic.PureOps.Ideal
import Idealize.ShloMosaic.Lib.ValueIdx

noncomputable section

namespace Cert.Sage

open Idealize.ShloMosaic Idealize.ShloMosaic.ValueIdx

/-- Node features: 100000 rows of 128. -/
abbrev Nodes : Shape := ⟨2, ![100000, 128]⟩
/-- One value per node, kept as a column. -/
abbrev NodeCol : Shape := ⟨2, ![100000, 1]⟩
/-- A square weight matrix. -/
abbrev Weights : Shape := ⟨2, ![128, 128]⟩
/-- A bias vector. -/
abbrev Bias : Shape := ⟨1, ![128]⟩

/-- Row `r` of `l` against column `c` of `w`: the entry of the matrix product, as a sum over the 128 shared features. -/
def rowDot (l : Nodes.Idx → EReal) (w : Weights.Idx → EReal) (r : Fin 100000) (c : Fin 128) : EReal :=
  ∑ k : Fin 128, l (ix2 r k) * w (ix2 k c)

/-- The neighbour sums scaled row by row by the reciprocal in-degree: the mean over in-neighbours. -/
def meanAgg (agg : Nodes.Idx → EReal) (inv : NodeCol.Idx → EReal) : Nodes.Idx → EReal :=
  fun j => agg j * inv (ix2 (j 0) (0 : Fin 1))

/-- One layer before its activation, at the entry in row `r` and column `c`. -/
def linearAt (h agg : Nodes.Idx → EReal) (inv : NodeCol.Idx → EReal) (ws wn : Weights.Idx → EReal)
    (b : Bias.Idx → EReal) (r : Fin 100000) (c : Fin 128) : EReal :=
  (rowDot h ws r c + rowDot (meanAgg agg inv) wn r c) + b (ix1 c)

/-- One layer before its activation, as a whole array. -/
def linear (h agg : Nodes.Idx → EReal) (inv : NodeCol.Idx → EReal) (ws wn : Weights.Idx → EReal)
    (b : Bias.Idx → EReal) : Nodes.Idx → EReal :=
  fun i => linearAt h agg inv ws wn b (i 0) (i 1)

/-- The rectifier, entry by entry: the larger of the value and zero. -/
def relu (x : Nodes.Idx → EReal) : Nodes.Idx → EReal := fun i => max (x i) 0

theorem linear_apply (h agg : Nodes.Idx → EReal) (inv : NodeCol.Idx → EReal) (ws wn : Weights.Idx → EReal)
    (b : Bias.Idx → EReal) (r : Fin 100000) (c : Fin 128) :
    linear h agg inv ws wn b (ix2 r c) = linearAt h agg inv ws wn b r c := rfl

theorem relu_apply (x : Nodes.Idx → EReal) (i : Nodes.Idx) : relu x i = max (x i) 0 := rfl

end Cert.Sage

end
-- ==== Proof.SageRegion0.lean ====
/-
  The first layer's launch: what its output array holds when the launch ends.

  The launch walks 20 grid points. At point `t` it stages rows `5000 t … 5000 t + 4999` of the node features, of the
  neighbour sums and of the reciprocal in-degree column, together with the two weight matrices and the bias whole,
  and writes back the same rows of the output. The tile written at point `t` is, entry by entry, the rectified layer
  function of the WHOLE arrays at row `5000 t + p`: a row of the layer depends on that row of the features and of
  the neighbour sums, on that node's reciprocal in-degree, and on the weights and the bias, and on nothing else. The
  20 tiles cover every row, so when the launch ends the output array is the rectified layer function of the arrays
  the launch found.

  Everything is stated at the contents `V` the launch finds in the core's buffers, whatever they are.
-/
import proofs.«161718_j77506979824092_1_alg».proof.Proof.Gen.KernelIdeal.Frame
import proofs.«161718_j77506979824092_1_alg».proof.Proof.SageTile
import proofs.«161718_j77506979824092_1_alg».proof.Proof.SageSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Tile
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The arrays the launch finds -/

/-- The node features. -/
abbrev feat (c : Dev nD) : Vec Ideal S100000x128 .f32 := V c main_arg0
/-- The sums over in-neighbours. -/
abbrev nsum (c : Dev nD) : Vec Ideal S100000x128 .f32 := V c main_v18
/-- The reciprocal in-degrees, as a column. -/
abbrev invd (c : Dev nD) : Vec Ideal S100000x1 .f32 := V c main_v8
/-- The weights applied to a node's own features. -/
abbrev wself (c : Dev nD) : Vec Ideal S128x128 .f32 := V c main_arg3
/-- The weights applied to the mean over its neighbours. -/
abbrev wnbr (c : Dev nD) : Vec Ideal S128x128 .f32 := V c main_arg4
/-- The bias. -/
abbrev bias (c : Dev nD) : Vec Ideal S128 .f32 := V c main_arg5

/-- What the output array ends holding: the rectified layer function of those arrays. -/
def out (c : Dev nD) : Vec Ideal S100000x128 .f32 :=
  Cert.Sage.relu (Cert.Sage.linear (feat V c) (nsum V c) (invd V c) (wself V c) (wnbr V c) (bias V c))

/-! ## Where the blocks sit -/

theorem hz2 : (![0, 0] : Fin 2 → Nat) = fun _ => 0 := funext fun a => by fin_cases a <;> rfl
theorem hz1 : (![0] : Fin 1 → Nat) = fun _ => 0 := funext fun a => by fin_cases a <;> rfl

/-- At grid point `t` the tiled windows sit at block row `t`, the whole ones at the origin. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 20 := by
  have h : t.val < grid0.N := t.isLt
  rw [N_0] at h
  exact h

/-- Row `p` of the tile at point `t` is row `5000 t + p` of the array. -/
def rowAt (t : Fin cfg0.N) (p : Fin 5000) : Fin 100000 :=
  ⟨t.val * 5000 + p.val, by have := point_lt t; have := p.isLt; omega⟩

/-! ## Each staged block, read where its rectangle says -/

theorem featBlock (c : Dev nD) (t : Fin cfg0.N) (p : Fin 5000) (k : Fin 128) :
    iblk0 (F := Ideal) V c 0 t (ix2 p k) = feat V c (ix2 (rowAt t p) k) := by
  unfold iblk0
  rw [View.read_apply]
  show V c main_arg0 (((cfg0.win 0).blk t).view.emb (ix2 p k)) = V c main_arg0 (ix2 (rowAt t p) k)
  obtain ⟨e0, e1, -⟩ := idx0 t
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem nsumBlock (c : Dev nD) (t : Fin cfg0.N) (p : Fin 5000) (k : Fin 128) :
    iblk0 (F := Ideal) V c 1 t (ix2 p k) = nsum V c (ix2 (rowAt t p) k) := by
  unfold iblk0
  rw [View.read_apply]
  show V c main_v18 (((cfg0.win 1).blk t).view.emb (ix2 p k)) = V c main_v18 (ix2 (rowAt t p) k)
  obtain ⟨-, -, e0, e1, -⟩ := idx0 t
  refine congrArg (V c main_v18) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem invdBlock (c : Dev nD) (t : Fin cfg0.N) (p : Fin 5000) :
    iblk0 (F := Ideal) V c 2 t (ix2 p (0 : Fin 1)) = invd V c (ix2 (rowAt t p) (0 : Fin 1)) := by
  unfold iblk0
  rw [View.read_apply]
  show V c main_v8 (((cfg0.win 2).blk t).view.emb (ix2 p (0 : Fin 1))) = V c main_v8 (ix2 (rowAt t p) (0 : Fin 1))
  obtain ⟨-, -, -, -, e0, e1, -⟩ := idx0 t
  refine congrArg (V c main_v8) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

theorem wselfBlock (c : Dev nD) (t : Fin cfg0.N) (k q : Fin 128) :
    iblk0 (F := Ideal) V c 3 t (ix2 k q) = wself V c (ix2 k q) := by
  unfold iblk0
  rw [View.read_apply]
  show V c main_arg3 (((cfg0.win 3).blk t).view.emb (ix2 k q)) = V c main_arg3 (ix2 k q)
  obtain ⟨-, -, -, -, -, -, e0, e1, -⟩ := idx0 t
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem wnbrBlock (c : Dev nD) (t : Fin cfg0.N) (k q : Fin 128) :
    iblk0 (F := Ideal) V c 4 t (ix2 k q) = wnbr V c (ix2 k q) := by
  unfold iblk0
  rw [View.read_apply]
  show V c main_arg4 (((cfg0.win 4).blk t).view.emb (ix2 k q)) = V c main_arg4 (ix2 k q)
  obtain ⟨-, -, -, -, -, -, -, -, e0, e1, -⟩ := idx0 t
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem biasBlock (c : Dev nD) (t : Fin cfg0.N) (q : Fin 128) :
    iblk0 (F := Ideal) V c 5 t (ix1 q) = bias V c (ix1 q) := by
  unfold iblk0
  rw [View.read_apply]
  show V c main_arg5 (((cfg0.win 5).blk t).view.emb (ix1 q)) = V c main_arg5 (ix1 q)
  obtain ⟨-, -, -, -, -, -, -, -, -, -, e0, -⟩ := idx0 t
  refine congrArg (V c main_arg5) (funext fun a => Fin.ext ?_)
  match a with
  | ⟨0, _⟩ => show win0_5.index t (0 : Fin 1) * 128 + 1 * q.val = q.val; omega

/-! ## A tile is the layer function at its rows -/

/-- The value the body computes at row `p`, column `q` of the tile at point `t` is the layer function of the whole
    arrays at row `5000 t + p`, column `q`. -/
theorem tile_eq (c : Dev nD) (t : Fin cfg0.N) (p : Fin 5000) (q : Fin 128) :
    tileLinear (iblk0 (F := Ideal) V c 0 t) (iblk0 (F := Ideal) V c 1 t) (iblk0 (F := Ideal) V c 2 t)
        (iblk0 (F := Ideal) V c 3 t) (iblk0 (F := Ideal) V c 4 t) (iblk0 (F := Ideal) V c 5 t) p q
      = Cert.Sage.linearAt (feat V c) (nsum V c) (invd V c) (wself V c) (wnbr V c) (bias V c) (rowAt t p) q := by
  unfold tileLinear Cert.Sage.linearAt Cert.Sage.rowDot Cert.Sage.meanAgg
  simp only [featBlock, nsumBlock, invdBlock, wselfBlock, wnbrBlock, biasBlock]

/-! ## What a grid point writes back -/

/-- Point `t` writes back block `t` of the rectified layer function. -/
theorem flushed_eq (c : Dev nD) (t : Fin cfg0.N) :
    (dat0 (F := Ideal) V c).flushed 6 t = ((cfg0.win 6).blk t).view.read (Elt Ideal) (out V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨p, q, rfl⟩ : ∃ (p : Fin 5000) (q : Fin 128), j = ix2 p q := ⟨j 0, j 1, @eq_ix2 5000 128 j⟩
  rw [View.read_apply]
  show k0_pay1 (F := Ideal) (iblk0 V c 0 t) (iblk0 V c 1 t) (iblk0 V c 2 t) (iblk0 V c 3 t) (iblk0 V c 4 t) (iblk0 V c 5 t) (ix2 p q)
      = out V c (((cfg0.win 6).blk t).view.emb (ix2 p q))
  refine (pay0_at (iblk0 V c 0 t) (iblk0 V c 1 t) (iblk0 V c 2 t) (iblk0 V c 3 t) (iblk0 V c 4 t) (iblk0 V c 5 t) p q).trans ?_
  rw [tile_eq V c t p q]
  have hemb : ((cfg0.win 6).blk t).view.emb (ix2 p q) = ix2 (rowAt t p) q := by
    obtain ⟨-, -, -, -, -, -, -, -, -, -, -, e0, e1⟩ := idx0 t
    refine funext fun a => Fin.ext ?_
    match a with
    | ⟨0, _⟩ => show win0_6.index t (0 : Fin 2) * 5000 + 1 * p.val = t.val * 5000 + p.val; omega
    | ⟨1, _⟩ => show win0_6.index t (1 : Fin 2) * 128 + 1 * q.val = q.val; omega
  rw [hemb]
  rfl

/-! ## The tiles cover the array -/

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- Row `r` lies in the block of point `r / 5000`, which is written back. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  refine ⟨t, flush0_6 t, ?_⟩
  rw [mem_blk]
  obtain ⟨-, -, -, -, -, -, -, -, -, -, -, e0, e1⟩ := idx0 t
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The array when the launch ends -/

/-- When the launch ends, its output array holds the rectified layer function of the arrays it found. -/
theorem final (c : Dev nD) : (dat0 (F := Ideal) V c).arrAt 6 cfg0.N = out V c :=
  (dat0 (F := Ideal) V c).arrAt_eq_of_cover 6 (out V c) (fun t _ => flushed_eq V c t) (cover)

end Cert.KernelIdeal.Region0

end
-- ==== Proof.SageRegion1.lean ====
/-
  The second layer's launch: what its output array holds when the launch ends.

  The launch walks the same 20 grid points over the same windows as the first layer's, now over the first layer's
  output array as node features, over the sums of THOSE rows over in-neighbours, over the same reciprocal in-degree
  column, and over the second layer's weights and bias. Its body stores the layer function's value as it is, with
  no rectifier. The tile written at point `t` is, entry by entry, the layer function of the whole arrays at row
  `5000 t + p`; the 20 tiles cover every row, so when the launch ends the output array is the layer function of the
  arrays the launch found.

  Everything is stated at the contents `V` the launch finds in the core's buffers, whatever they are.
-/
import proofs.«161718_j77506979824092_1_alg».proof.Proof.Gen.KernelIdeal.Frame
import proofs.«161718_j77506979824092_1_alg».proof.Proof.SageTile
import proofs.«161718_j77506979824092_1_alg».proof.Proof.SageSpec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Tile
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The arrays the launch finds -/

/-- The node features: the first layer's output. -/
abbrev feat (c : Dev nD) : Vec Ideal S100000x128 .f32 := V c main_v19
/-- The sums of those rows over in-neighbours. -/
abbrev nsum (c : Dev nD) : Vec Ideal S100000x128 .f32 := V c main_v29
/-- The reciprocal in-degrees, as a column. -/
abbrev invd (c : Dev nD) : Vec Ideal S100000x1 .f32 := V c main_v8
/-- The weights applied to a node's own features. -/
abbrev wself (c : Dev nD) : Vec Ideal S128x128 .f32 := V c main_arg6
/-- The weights applied to the mean over its neighbours. -/
abbrev wnbr (c : Dev nD) : Vec Ideal S128x128 .f32 := V c main_arg7
/-- The bias. -/
abbrev bias (c : Dev nD) : Vec Ideal S128 .f32 := V c main_arg8

/-- What the output array ends holding: the layer function of those arrays. -/
def out (c : Dev nD) : Vec Ideal S100000x128 .f32 :=
  Cert.Sage.linear (feat V c) (nsum V c) (invd V c) (wself V c) (wnbr V c) (bias V c)

/-! ## Where the blocks sit -/

theorem hz2 : (![0, 0] : Fin 2 → Nat) = fun _ => 0 := funext fun a => by fin_cases a <;> rfl
theorem hz1 : (![0] : Fin 1 → Nat) = fun _ => 0 := funext fun a => by fin_cases a <;> rfl

/-- At grid point `t` the tiled windows sit at block row `t`, the whole ones at the origin. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem point_lt (t : Fin cfg1.N) : t.val < 20 := by
  have h : t.val < grid1.N := t.isLt
  rw [N_1] at h
  exact h

/-- Row `p` of the tile at point `t` is row `5000 t + p` of the array. -/
def rowAt (t : Fin cfg1.N) (p : Fin 5000) : Fin 100000 :=
  ⟨t.val * 5000 + p.val, by have := point_lt t; have := p.isLt; omega⟩

/-! ## Each staged block, read where its rectangle says -/

theorem featBlock (c : Dev nD) (t : Fin cfg1.N) (p : Fin 5000) (k : Fin 128) :
    iblk1 (F := Ideal) V c 0 t (ix2 p k) = feat V c (ix2 (rowAt t p) k) := by
  unfold iblk1
  rw [View.read_apply]
  show V c main_v19 (((cfg1.win 0).blk t).view.emb (ix2 p k)) = V c main_v19 (ix2 (rowAt t p) k)
  obtain ⟨e0, e1, -⟩ := idx1 t
  refine congrArg (V c main_v19) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem nsumBlock (c : Dev nD) (t : Fin cfg1.N) (p : Fin 5000) (k : Fin 128) :
    iblk1 (F := Ideal) V c 1 t (ix2 p k) = nsum V c (ix2 (rowAt t p) k) := by
  unfold iblk1
  rw [View.read_apply]
  show V c main_v29 (((cfg1.win 1).blk t).view.emb (ix2 p k)) = V c main_v29 (ix2 (rowAt t p) k)
  obtain ⟨-, -, e0, e1, -⟩ := idx1 t
  refine congrArg (V c main_v29) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem invdBlock (c : Dev nD) (t : Fin cfg1.N) (p : Fin 5000) :
    iblk1 (F := Ideal) V c 2 t (ix2 p (0 : Fin 1)) = invd V c (ix2 (rowAt t p) (0 : Fin 1)) := by
  unfold iblk1
  rw [View.read_apply]
  show V c main_v8 (((cfg1.win 2).blk t).view.emb (ix2 p (0 : Fin 1))) = V c main_v8 (ix2 (rowAt t p) (0 : Fin 1))
  obtain ⟨-, -, -, -, e0, e1, -⟩ := idx1 t
  refine congrArg (V c main_v8) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem wselfBlock (c : Dev nD) (t : Fin cfg1.N) (k q : Fin 128) :
    iblk1 (F := Ideal) V c 3 t (ix2 k q) = wself V c (ix2 k q) := by
  unfold iblk1
  rw [View.read_apply]
  show V c main_arg6 (((cfg1.win 3).blk t).view.emb (ix2 k q)) = V c main_arg6 (ix2 k q)
  obtain ⟨-, -, -, -, -, -, e0, e1, -⟩ := idx1 t
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem wnbrBlock (c : Dev nD) (t : Fin cfg1.N) (k q : Fin 128) :
    iblk1 (F := Ideal) V c 4 t (ix2 k q) = wnbr V c (ix2 k q) := by
  unfold iblk1
  rw [View.read_apply]
  show V c main_arg7 (((cfg1.win 4).blk t).view.emb (ix2 k q)) = V c main_arg7 (ix2 k q)
  obtain ⟨-, -, -, -, -, -, -, -, e0, e1, -⟩ := idx1 t
  refine congrArg (V c main_arg7) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem biasBlock (c : Dev nD) (t : Fin cfg1.N) (q : Fin 128) :
    iblk1 (F := Ideal) V c 5 t (ix1 q) = bias V c (ix1 q) := by
  unfold iblk1
  rw [View.read_apply]
  show V c main_arg8 (((cfg1.win 5).blk t).view.emb (ix1 q)) = V c main_arg8 (ix1 q)
  obtain ⟨-, -, -, -, -, -, -, -, -, -, e0, -⟩ := idx1 t
  refine congrArg (V c main_arg8) (funext fun a => Fin.ext ?_)
  match a with
  | ⟨0, _⟩ => show win1_5.index t (0 : Fin 1) * 128 + 1 * q.val = q.val; omega

/-! ## A tile is the layer function at its rows -/

/-- The value the body computes at row `p`, column `q` of the tile at point `t` is the layer function of the whole
    arrays at row `5000 t + p`, column `q`. -/
theorem tile_eq (c : Dev nD) (t : Fin cfg1.N) (p : Fin 5000) (q : Fin 128) :
    tileLinear (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) p q
      = Cert.Sage.linearAt (feat V c) (nsum V c) (invd V c) (wself V c) (wnbr V c) (bias V c) (rowAt t p) q := by
  unfold tileLinear Cert.Sage.linearAt Cert.Sage.rowDot Cert.Sage.meanAgg
  simp only [featBlock, nsumBlock, invdBlock, wselfBlock, wnbrBlock, biasBlock]

/-! ## What a grid point writes back -/

/-- Point `t` writes back block `t` of the layer function. -/
theorem flushed_eq (c : Dev nD) (t : Fin cfg1.N) :
    (dat1 (F := Ideal) V c).flushed 6 t = ((cfg1.win 6).blk t).view.read (Elt Ideal) (out V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨p, q, rfl⟩ : ∃ (p : Fin 5000) (q : Fin 128), j = ix2 p q := ⟨j 0, j 1, @eq_ix2 5000 128 j⟩
  rw [View.read_apply]
  show k1_pay1 (F := Ideal) (iblk1 V c 0 t) (iblk1 V c 1 t) (iblk1 V c 2 t) (iblk1 V c 3 t) (iblk1 V c 4 t) (iblk1 V c 5 t) (ix2 p q)
      = out V c (((cfg1.win 6).blk t).view.emb (ix2 p q))
  refine (pay1_at (iblk1 V c 0 t) (iblk1 V c 1 t) (iblk1 V c 2 t) (iblk1 V c 3 t) (iblk1 V c 4 t) (iblk1 V c 5 t) p q).trans ?_
  rw [tile_eq V c t p q]
  have hemb : ((cfg1.win 6).blk t).view.emb (ix2 p q) = ix2 (rowAt t p) q := by
    obtain ⟨-, -, -, -, -, -, -, -, -, -, -, e0, e1⟩ := idx1 t
    refine funext fun a => Fin.ext ?_
    match a with
    | ⟨0, _⟩ => show win1_6.index t (0 : Fin 2) * 5000 + 1 * p.val = t.val * 5000 + p.val; omega
    | ⟨1, _⟩ => show win1_6.index t (1 : Fin 2) * 128 + 1 * q.val = q.val; omega
  rw [hemb]
  rfl

/-! ## The tiles cover the array -/

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v30).slice (win1_6.rect t)).set ↔ _
  rw [View.set_slice_whole, Rect.mem_set_unit]
  exact Iff.rfl

/-- Row `r` lies in the block of point `r / 5000`, which is written back. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  refine ⟨t, flush1_6 t, ?_⟩
  rw [mem_blk]
  obtain ⟨-, -, -, -, -, -, -, -, -, -, -, e0, e1⟩ := idx1 t
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## The array when the launch ends -/

/-- When the launch ends, its output array holds the layer function of the arrays it found. -/
theorem final (c : Dev nD) : (dat1 (F := Ideal) V c).arrAt 6 cfg1.N = out V c :=
  (dat1 (F := Ideal) V c).arrAt_eq_of_cover 6 (out V c) (fun t _ => flushed_eq V c t) (cover)

end Cert.KernelIdeal.Region1

end
-- ==== Proof.SageHost.lean ====
/-
  The kernel program's result as the two-layer graph convolution of its arguments.

  Between its two launches the program computes on the host exactly what the reference computes there: the
  reciprocal in-degree (a scatter-add of ones along the destination index, clamped below by one, inverted, kept as a
  column) and, before each launch, the sums over in-neighbours of the rows the launch is about to transform (a gather
  along the source index, negative entries wrapped once, then a scatter-add along the destination index). Those two
  are kept as closed functions of the index arrays and of the rows; nothing here looks inside a gather or a
  scatter-add.

  The buffers are followed from the launch memory through the four stretches of the program: the host operations
  before the first launch, the first launch (whose output array ends at the rectified layer function of what it
  found), the host operations between the launches (which gather from that output array), and the second launch
  (whose output array ends at the layer function of what it found). A buffer that a stretch does not write keeps its
  contents across it; an input array of a launch keeps its contents across the launch.
-/
import proofs.«161718_j77506979824092_1_alg».proof.Proof.Gen.KernelIdeal.Frame
import proofs.«161718_j77506979824092_1_alg».proof.Proof.SageRegion0
import proofs.«161718_j77506979824092_1_alg».proof.Proof.SageRegion1
import proofs.«161718_j77506979824092_1_alg».proof.Proof.SageSpec
import Idealize.ShloMosaic.Lib.StableHlo.Run
import Idealize.ShloMosaic.PureOps.Ideal
import Idealize.ShloMosaic.Lib.Pipeline.Value

set_option maxRecDepth 16384

noncomputable section

namespace Cert.KernelIdeal.Host

open Cert.KernelIdeal Cert.KernelIdeal.Gen Idealize.ShloMosaic Idealize.ShloMosaic.TcCoe Idealize.ShloMosaic.StableHlo
open Idealize.SL Idealize.SL.Sem

/-! ## The two closed host functions, and the two layers over them -/

/-- The sums over in-neighbours: the rows of `h` gathered along the source index (an entry below zero moved up by
    the number of nodes, once) and added up along the destination index, from zero. Kept closed. -/
def neighbourSum (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The reciprocal of each node's in-degree, a degree below one counted as one, as a column. Kept closed. -/
def invDegree (dst : IVec S1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The first layer's output: the rectified layer function of the features, their neighbour sums and the
    reciprocal in-degrees. -/
def hidden (x : FVec Ideal S100000x128 .f32) (src dst : IVec S1600000 32) (ws1 wn1 : FVec Ideal S128x128 .f32)
    (b1 : FVec Ideal S128 .f32) : FVec Ideal S100000x128 .f32 :=
  Cert.Sage.relu (Cert.Sage.linear x (neighbourSum x src dst) (invDegree dst) ws1 wn1 b1)

/-- Both layers: the layer function of the first layer's output, of ITS neighbour sums, and of the same reciprocal
    in-degrees. -/
def twoLayer (x : FVec Ideal S100000x128 .f32) (src dst : IVec S1600000 32) (ws1 wn1 : FVec Ideal S128x128 .f32)
    (b1 : FVec Ideal S128 .f32) (ws2 wn2 : FVec Ideal S128x128 .f32) (b2 : FVec Ideal S128 .f32) :
    FVec Ideal S100000x128 .f32 :=
  Cert.Sage.linear (hidden x src dst ws1 wn1 b1) (neighbourSum (hidden x src dst ws1 wn1 b1) src dst) (invDegree dst)
    ws2 wn2 b2

variable (m : (ℓ : Loc nD τ sig) → Buf (Elt Ideal) ℓ) (ρ : Dev nD → PrngReg)

/-- A stretch of host operations leaves alone every buffer none of them writes: the operations' written buffers are
    listed and each is another buffer than the one asked about. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first launch -/

theorem first_arg0 (c : Dev nD) : W1 (F := Ideal) m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem first_arg1 (c : Dev nD) : W1 (F := Ideal) m ρ c (Proc.devRef .tc main_arg1) = m ((c : Thread nD τ).loc main_arg1) := by
  show StableHlo.after hostOps0 (W0 m ρ c) (Proc.devRef .tc main_arg1) = W0 m ρ c (Proc.devRef .tc main_arg1)
  host_keeps hostOps0
theorem first_arg2 (c : Dev nD) : W1 (F := Ideal) m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem first_arg3 (c : Dev nD) : W1 (F := Ideal) m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem first_arg4 (c : Dev nD) : W1 (F := Ideal) m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem first_arg5 (c : Dev nD) : W1 (F := Ideal) m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0
theorem first_arg6 (c : Dev nD) : W1 (F := Ideal) m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem first_arg7 (c : Dev nD) : W1 (F := Ideal) m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0
theorem first_arg8 (c : Dev nD) : W1 (F := Ideal) m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0

set_option maxHeartbeats 2000000 in
/-- The first launch finds the neighbour sums of the features. -/
theorem first_nsum (c : Dev nD) :
    W1 (F := Ideal) m ρ c (Proc.devRef .tc main_v18) = neighbourSum (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

set_option maxHeartbeats 2000000 in
/-- The first launch finds the reciprocal in-degrees. -/
theorem first_inv (c : Dev nD) :
    W1 (F := Ideal) m ρ c (Proc.devRef .tc main_v8) = invDegree (m ((c : Thread nD τ).loc main_arg2)) := by
  show StableHlo.after hostOps0 (W0 m ρ c) (Proc.devRef .tc main_v8) = _
  after_results_simp <;> rfl

/-! ## Across the first launch -/

/-- The first launch's output array, when the launch ends: the first layer's output. -/
theorem mid_hidden (c : Dev nD) :
    W2 (F := Ideal) m ρ c (Proc.devRef .tc main_v19)
      = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Cert.KernelIdeal.Region0.final (V1 m ρ) c).trans ?_)
  unfold Cert.KernelIdeal.Region0.out hidden
  show Cert.Sage.relu (Cert.Sage.linear (W1 m ρ c (Proc.devRef .tc main_arg0)) (W1 m ρ c (Proc.devRef .tc main_v18))
      (W1 m ρ c (Proc.devRef .tc main_v8)) (W1 m ρ c (Proc.devRef .tc main_arg3)) (W1 m ρ c (Proc.devRef .tc main_arg4))
      (W1 m ρ c (Proc.devRef .tc main_arg5))) = _
  rw [first_arg0, first_nsum, first_inv, first_arg3, first_arg4, first_arg5]

/-- The reciprocal in-degree column is an input of the first launch: it leaves the launch as it entered. -/
theorem mid_inv (c : Dev nD) : W2 (F := Ideal) m ρ c (Proc.devRef .tc main_v8) = invDegree (m ((c : Thread nD τ).loc main_arg2)) :=
  ((W2_arr m ρ c 2).trans (((dat0 (V1 m ρ) c).arrAt_in 2 rfl _).trans (A_eq0 (V1 m ρ) c 2))).trans (first_inv m ρ c)

theorem mid_arg1 (c : Dev nD) : W2 (F := Ideal) m ρ c (Proc.devRef .tc main_arg1) = m ((c : Thread nD τ).loc main_arg1) :=
  (W2_of_ne m ρ c main_arg1 (by decide)).trans (first_arg1 m ρ c)
theorem mid_arg2 (c : Dev nD) : W2 (F := Ideal) m ρ c (Proc.devRef .tc main_arg2) = m ((c : Thread nD τ).loc main_arg2) :=
  (W2_of_ne m ρ c main_arg2 (by decide)).trans (first_arg2 m ρ c)
theorem mid_arg6 (c : Dev nD) : W2 (F := Ideal) m ρ c (Proc.devRef .tc main_arg6) = m ((c : Thread nD τ).loc main_arg6) :=
  (W2_of_ne m ρ c main_arg6 (by decide)).trans (first_arg6 m ρ c)
theorem mid_arg7 (c : Dev nD) : W2 (F := Ideal) m ρ c (Proc.devRef .tc main_arg7) = m ((c : Thread nD τ).loc main_arg7) :=
  (W2_of_ne m ρ c main_arg7 (by decide)).trans (first_arg7 m ρ c)
theorem mid_arg8 (c : Dev nD) : W2 (F := Ideal) m ρ c (Proc.devRef .tc main_arg8) = m ((c : Thread nD τ).loc main_arg8) :=
  (W2_of_ne m ρ c main_arg8 (by decide)).trans (first_arg8 m ρ c)

/-! ## Before the second launch -/

theorem second_hidden (c : Dev nD) :
    W3 (F := Ideal) m ρ c (Proc.devRef .tc main_v19) = W2 m ρ c (Proc.devRef .tc main_v19) := by
  show StableHlo.after hostOps1 (W2 m ρ c) (Proc.devRef .tc main_v19) = W2 m ρ c (Proc.devRef .tc main_v19)
  host_keeps hostOps1
theorem second_inv (c : Dev nD) :
    W3 (F := Ideal) m ρ c (Proc.devRef .tc main_v8) = W2 m ρ c (Proc.devRef .tc main_v8) := by
  show StableHlo.after hostOps1 (W2 m ρ c) (Proc.devRef .tc main_v8) = W2 m ρ c (Proc.devRef .tc main_v8)
  host_keeps hostOps1
theorem second_arg6 (c : Dev nD) :
    W3 (F := Ideal) m ρ c (Proc.devRef .tc main_arg6) = W2 m ρ c (Proc.devRef .tc main_arg6) := by
  show StableHlo.after hostOps1 (W2 m ρ c) (Proc.devRef .tc main_arg6) = W2 m ρ c (Proc.devRef .tc main_arg6)
  host_keeps hostOps1
theorem second_arg7 (c : Dev nD) :
    W3 (F := Ideal) m ρ c (Proc.devRef .tc main_arg7) = W2 m ρ c (Proc.devRef .tc main_arg7) := by
  show StableHlo.after hostOps1 (W2 m ρ c) (Proc.devRef .tc main_arg7) = W2 m ρ c (Proc.devRef .tc main_arg7)
  host_keeps hostOps1
theorem second_arg8 (c : Dev nD) :
    W3 (F := Ideal) m ρ c (Proc.devRef .tc main_arg8) = W2 m ρ c (Proc.devRef .tc main_arg8) := by
  show StableHlo.after hostOps1 (W2 m ρ c) (Proc.devRef .tc main_arg8) = W2 m ρ c (Proc.devRef .tc main_arg8)
  host_keeps hostOps1

set_option maxHeartbeats 2000000 in
/-- The second launch finds the neighbour sums of the first launch's output array. -/
theorem second_nsum (c : Dev nD) :
    W3 (F := Ideal) m ρ c (Proc.devRef .tc main_v29)
      = neighbourSum (W2 m ρ c (Proc.devRef .tc main_v19)) (W2 m ρ c (Proc.devRef .tc main_arg1)) (W2 m ρ c (Proc.devRef .tc main_arg2)) := by
  show StableHlo.after hostOps1 (W2 m ρ c) (Proc.devRef .tc main_v29) = _
  after_results_simp <;> rfl

/-! ## The result -/

/-- When the program ends, its result array holds both layers of the launch memory's argument arrays. -/
theorem result (c : Dev nD) :
    W4 (F := Ideal) m ρ c (Proc.devRef .tc main_v30)
      = twoLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 6).trans ((Cert.KernelIdeal.Region1.final (V3 m ρ) c).trans ?_)
  unfold Cert.KernelIdeal.Region1.out twoLayer
  show Cert.Sage.linear (W3 m ρ c (Proc.devRef .tc main_v19)) (W3 m ρ c (Proc.devRef .tc main_v29))
      (W3 m ρ c (Proc.devRef .tc main_v8)) (W3 m ρ c (Proc.devRef .tc main_arg6)) (W3 m ρ c (Proc.devRef .tc main_arg7))
      (W3 m ρ c (Proc.devRef .tc main_arg8)) = _
  rw [second_nsum, second_hidden, second_inv, second_arg6, second_arg7, second_arg8,
    mid_hidden, mid_inv, mid_arg1, mid_arg2, mid_arg6, mid_arg7, mid_arg8]

end Cert.KernelIdeal.Host

end
-- ==== Proof.SageReference.lean ====
/-
  The reference program's result as the two-layer graph convolution of its arguments.

  The reference computes each layer on the host: the neighbour sums by a gather along the source index and a
  scatter-add along the destination index, the scaling by the reciprocal in-degree, two matrix products against the
  whole 100000-row array, their sum, the bias, and between the layers the rectifier. Read one operation at a time at
  an index, its result is the layer function applied twice.

  The gather and the scatter-add are never opened: which entry they read depends on the index arrays' values, and
  the kernel's program applies the very same two operations to the same operands, so the neighbour sums stay one
  closed function `neighbourSum h src dst` of the features and the two index arrays, and the reciprocal in-degree one
  closed function `invDegree dst`. The second layer recomputes the adjusted source index, the destination column
  and the zero fill; those recomputed stages are the first layer's, term for term.
-/
import proofs.«161718_j77506979824092_1_alg».proof.Proof.Gen.ReferenceIdeal.Run
import proofs.«161718_j77506979824092_1_alg».proof.Proof.Gen.ReferenceIdeal.Read
import proofs.«161718_j77506979824092_1_alg».proof.Proof.SageSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Node features, and anything of their shape. -/
abbrev NodeArr := FVec Ideal S100000x128 .f32
/-- One value per node, as a column. -/
abbrev ColArr := FVec Ideal S100000x1 .f32
/-- A weight matrix. -/
abbrev WArr := FVec Ideal S128x128 .f32
/-- A bias vector. -/
abbrev BArr := FVec Ideal S128 .f32
/-- An edge index array. -/
abbrev EdgeArr := (⟨S1600000, .i32⟩ : BufTy).Contents (Elt Ideal)

/-- The sums over in-neighbours: the rows of `h` gathered along the source index (negative entries wrapped once, as
    the program does) and added up along the destination index. Kept closed. -/
def neighbourSum (h : NodeArr) (src dst : EdgeArr) : NodeArr := val_main_v18 (F := Ideal) h src dst

/-- The reciprocal of each node's in-degree, a degree of zero counted as one, as a column. Kept closed. -/
def invDegree (dst : EdgeArr) : ColArr := val_main_v8 (F := Ideal) dst

/-! ## The host's operations of one layer, read at an index -/

/-- A whole-array matrix product at row `r`, column `c`: the row against the column over the 128 shared features. -/
theorem hostDot (l : NodeArr) (w : WArr) (r : Fin 100000) (c : Fin 128) :
    Host.dotGeneral (F := Ideal) dot_S100000x128_S128x128_S100000x128_1_0_0_1_n_n none l w (ix2 r c) = Cert.Sage.rowDot l w r c := by
  have e := val_main_v21_apply l w (ix2 r c)
  unfold val_main_v21 at e
  rw [e]
  unfold Cert.Sage.rowDot
  refine Finset.sum_congr rfl fun k _ => ?_
  have el : lidx_main_v21 (ix2 r c) k = ix2 r k := funext fun a => Fin.ext (by
    match a with
    | ⟨0, _⟩ => rfl
    | ⟨1, _⟩ => rfl)
  have er : ridx_main_v21 (ix2 r c) k = ix2 k c := funext fun a => Fin.ext (by
    match a with
    | ⟨0, _⟩ => rfl
    | ⟨1, _⟩ => rfl)
  rw [el, er]

/-- A per-node column spread over the 128 features reads, at `(r, c)`, the node's value. -/
theorem bcastCol (inv : ColArr) (r : Fin 100000) (c : Fin 128) :
    broadcastInDim S100000x128 ![0, 1] bcast_S100000x1_S100000x128_0_1 inv (ix2 r c) = inv (ix2 r (0 : Fin 1)) :=
  broadcastInDim_apply _ bcast_S100000x1_S100000x128_0_1 inv (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

/-- The bias spread over the nodes reads, at `(r, c)`, the bias of feature `c`. -/
theorem bcastBias (b : BArr) (r : Fin 100000) (c : Fin 128) :
    broadcastInDim S100000x128 ![0, 1] bcast_S1x128_S100000x128_0_1 (broadcastInDim S1x128 ![1] bcast_S128_S1x128_1 b) (ix2 r c)
      = b (ix1 c) := by
  have e1 := val_main_v25_apply (F := Ideal) b (ix2 r c)
  unfold val_main_v25 val_main_v24 at e1
  rw [e1]
  have e2 := val_main_v24_apply (F := Ideal) b (idx_main_v25 (ix2 r c))
  unfold val_main_v24 at e2
  rw [e2]
  exact congrArg b (funext fun a => Fin.ext (by
    match a with
    | ⟨0, _⟩ => rfl))

/-- The scaled neighbour sums as the host writes them are the mean aggregation. -/
theorem hostMean (agg : NodeArr) (inv : ColArr) :
    mulf (F := Ideal) agg (broadcastInDim S100000x128 ![0, 1] bcast_S100000x1_S100000x128_0_1 inv) = Cert.Sage.meanAgg agg inv := by
  funext j
  obtain ⟨r, k, rfl⟩ : ∃ (r : Fin 100000) (k : Fin 128), j = ix2 r k := ⟨j 0, j 1, eq_ix2 j⟩
  rw [mulf_apply, bcastCol]
  rfl

/-- One layer as the host writes it — two whole matrix products, their sum, the bias — is the layer function. -/
theorem hostLinear (h agg : NodeArr) (inv : ColArr) (ws wn : WArr) (b : BArr) :
    addf (F := Ideal) (addf (F := Ideal) (Host.dotGeneral (F := Ideal) dot_S100000x128_S128x128_S100000x128_1_0_0_1_n_n none h ws)
        (Host.dotGeneral (F := Ideal) dot_S100000x128_S128x128_S100000x128_1_0_0_1_n_n none (mulf (F := Ideal) agg (broadcastInDim S100000x128 ![0, 1] bcast_S100000x1_S100000x128_0_1 inv)) wn))
      (broadcastInDim S100000x128 ![0, 1] bcast_S1x128_S100000x128_0_1 (broadcastInDim S1x128 ![1] bcast_S128_S1x128_1 b))
    = Cert.Sage.linear h agg inv ws wn b := by
  funext i
  obtain ⟨r, c, rfl⟩ : ∃ (r : Fin 100000) (c : Fin 128), i = ix2 r c := ⟨i 0, i 1, eq_ix2 i⟩
  rw [addf_apply, addf_apply, hostDot, hostMean, hostDot, bcastBias, Cert.Sage.linear_apply]
  rfl

/-- The rectifier as the host writes it: the larger of the value and a zero fill. -/
theorem hostRelu (x : NodeArr) :
    maximumf (F := Ideal) x (val_main_call0_v0 (F := Ideal)) = Cert.Sage.relu x := by
  funext i
  rw [maximumf_apply, val_main_call0_v0_apply, val_main_call0_cst_apply, Cert.Sage.relu_apply, Ideal.ofBits_def,
    Ideal.ofBits_zero_f32]

/-! ## The stages the second layer recomputes are the first layer's -/

theorem zeroFill_eq : val_main_v35 (F := Ideal) = val_main_v16 (F := Ideal) := rfl
theorem dstColumn_eq (dst : EdgeArr) : val_main_v36 (F := Ideal) dst = val_main_v17 (F := Ideal) dst := rfl
theorem srcIndex_eq (src : EdgeArr) : val_main_v33 (F := Ideal) src = val_main_v14 (F := Ideal) src := rfl
theorem invSpread_eq (dst : EdgeArr) : val_main_v38 (F := Ideal) dst = val_main_v19 (F := Ideal) dst := rfl

/-- The second layer's neighbour sums are the same function, of the first layer's output. -/
theorem secondSum_eq (x0 : NodeArr) (src dst : EdgeArr) (x3 x4 : WArr) (x5 : BArr) :
    val_main_v37 (F := Ideal) x0 src dst x3 x4 x5 = neighbourSum (val_main_v27 (F := Ideal) x0 src dst x3 x4 x5) src dst := by
  unfold val_main_v37 val_main_v34 neighbourSum val_main_v18 val_main_v15
  rw [zeroFill_eq, dstColumn_eq, srcIndex_eq]

/-! ## The two layers -/

/-- The first layer before its activation. -/
theorem layer1_eq (x0 : NodeArr) (src dst : EdgeArr) (x3 x4 : WArr) (x5 : BArr) :
    val_main_v26 (F := Ideal) x0 src dst x3 x4 x5
      = Cert.Sage.linear x0 (neighbourSum x0 src dst) (invDegree dst) x3 x4 x5 := by
  unfold val_main_v26 val_main_v23 val_main_v21 val_main_v22 val_main_v20 val_main_v19 val_main_v25 val_main_v24
  exact hostLinear x0 (neighbourSum x0 src dst) (invDegree dst) x3 x4 x5

/-- The first layer's output. -/
theorem hidden_eq (x0 : NodeArr) (src dst : EdgeArr) (x3 x4 : WArr) (x5 : BArr) :
    val_main_v27 (F := Ideal) x0 src dst x3 x4 x5
      = Cert.Sage.relu (Cert.Sage.linear x0 (neighbourSum x0 src dst) (invDegree dst) x3 x4 x5) := by
  unfold val_main_v27
  rw [hostRelu, layer1_eq]

/-- The reference's result: the layer function of the rectified first layer, of its neighbour sums, and of the same
    reciprocal in-degrees. -/
theorem reference_eq (x0 : NodeArr) (src dst : EdgeArr) (x3 x4 : WArr) (x5 : BArr) (x6 x7 : WArr) (x8 : BArr) :
    val_main_v45 (F := Ideal) x0 src dst x3 x4 x5 x6 x7 x8
      = Cert.Sage.linear (val_main_v27 (F := Ideal) x0 src dst x3 x4 x5)
          (neighbourSum (val_main_v27 (F := Ideal) x0 src dst x3 x4 x5) src dst) (invDegree dst) x6 x7 x8 := by
  unfold val_main_v45 val_main_v42 val_main_v40 val_main_v41 val_main_v39 val_main_v44 val_main_v43
  rw [secondSum_eq, invSpread_eq]
  unfold val_main_v19
  exact hostLinear _ _ (invDegree dst) x6 x7 x8

end Cert.ReferenceIdeal.RefValue

end
-- ==== Proof.SageClaims.lean ====
/-
  The five claims.

  The three frames are the generated ones (the reference's is its generated run with the result dropped), and the
  idealization rewrote nothing, so what it preserves is trivially preserved. The value claim: run from memories that
  agree on the nine arguments, the kernel's program and the reference both end with their result array at ONE
  function of those arguments — two layers of the mean-aggregating graph convolution, the first rectified. The
  kernel's side is its run with the result array named, and that array read back through the two launches and the
  host operations around them; the reference's side is its generated run read one operation at a time.

  The two programs spell the neighbour sums and the reciprocal in-degree with the same host operations over
  dimension records that each program declares for itself; the records have the same fields, so the two spellings
  are one function. Neither the gather nor a scatter-add is opened to see it. No step uses that the inputs are
  finite: nothing is rearranged between the two sides.
-/
import proofs.«161718_j77506979824092_1_alg».proof.Defs
import proofs.«161718_j77506979824092_1_alg».proof.Proof.Gen.Kernel.Frame
import proofs.«161718_j77506979824092_1_alg».proof.Proof.Gen.KernelIdeal.Frame
import proofs.«161718_j77506979824092_1_alg».proof.Proof.Gen.ReferenceIdeal.Run
import proofs.«161718_j77506979824092_1_alg».proof.Proof.Gen.ReferenceIdeal.Read
import proofs.«161718_j77506979824092_1_alg».proof.Proof.Gen.Pre_finite_inputs
import proofs.«161718_j77506979824092_1_alg».proof.Proof.SageRun
import proofs.«161718_j77506979824092_1_alg».proof.Proof.SageHost
import proofs.«161718_j77506979824092_1_alg».proof.Proof.SageReference

set_option maxRecDepth 16384

noncomputable section

namespace Cert.Proof.SageClaims

open Idealize.ShloMosaic Idealize.ShloMosaic.TcCoe Idealize.SL.Sem

/-! ## One function under two spellings -/

/-- The reference's neighbour sums are the kernel program's. -/
theorem neighbourSum_same (h : FVec Ideal Cert.KernelIdeal.S100000x128 .f32) (src dst : IVec Cert.KernelIdeal.S1600000 32) :
    Cert.ReferenceIdeal.RefValue.neighbourSum h src dst = Cert.KernelIdeal.Host.neighbourSum h src dst := by
  unfold Cert.ReferenceIdeal.RefValue.neighbourSum Cert.KernelIdeal.Host.neighbourSum
    Cert.ReferenceIdeal.Read.val_main_v18 Cert.ReferenceIdeal.Read.val_main_v17 Cert.ReferenceIdeal.Read.val_main_v16 Cert.ReferenceIdeal.Read.val_main_cst_4
    Cert.ReferenceIdeal.Read.val_main_v15 Cert.ReferenceIdeal.Read.val_main_v14 Cert.ReferenceIdeal.Read.val_main_v13 Cert.ReferenceIdeal.Read.val_main_v12
    Cert.ReferenceIdeal.Read.val_main_v11 Cert.ReferenceIdeal.Read.val_main_c_3 Cert.ReferenceIdeal.Read.val_main_v10 Cert.ReferenceIdeal.Read.val_main_v9
    Cert.ReferenceIdeal.Read.val_main_c
  rfl

/-- The reference's reciprocal in-degree is the kernel program's. -/
theorem invDegree_same (dst : IVec Cert.KernelIdeal.S1600000 32) :
    Cert.ReferenceIdeal.RefValue.invDegree dst = Cert.KernelIdeal.Host.invDegree dst := by
  unfold Cert.ReferenceIdeal.RefValue.invDegree Cert.KernelIdeal.Host.invDegree
    Cert.ReferenceIdeal.Read.val_main_v8 Cert.ReferenceIdeal.Read.val_main_v7 Cert.ReferenceIdeal.Read.val_main_v6 Cert.ReferenceIdeal.Read.val_main_cst_2
    Cert.ReferenceIdeal.Read.val_main_v5 Cert.ReferenceIdeal.Read.val_main_v4 Cert.ReferenceIdeal.Read.val_main_cst_1 Cert.ReferenceIdeal.Read.val_main_v3
    Cert.ReferenceIdeal.Read.val_main_v2 Cert.ReferenceIdeal.Read.val_main_v1 Cert.ReferenceIdeal.Read.val_main_cst_0 Cert.ReferenceIdeal.Read.val_main_v0
    Cert.ReferenceIdeal.Read.val_main_cst
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at the two-layer function of the arguments they agree on. -/
theorem algebraic : Cert.algebraic_KernelIdeal_ReferenceIdeal := by
  intro m ρ m' ρ' _ hagree
  refine ⟨fun c => Cert.KernelIdeal.Host.twoLayer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Host.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v45_eq, Cert.ReferenceIdeal.RefValue.reference_eq, Cert.ReferenceIdeal.RefValue.hidden_eq,
      h0, h1, h2, h3, h4, h5, h6, h7, h8, neighbourSum_same, neighbourSum_same, invDegree_same]
    rfl

end Cert.Proof.SageClaims

end
-- ==== Proof.lean ====
/-
  A two-layer mean-aggregating graph convolution, the kernel's program against its plain reference, over the
  extended reals.

  The data: 100000 nodes with 128 features each; 1.6 million directed edges given as a source and a destination
  index per edge; per layer two 128-by-128 weight matrices and a bias. One layer maps node features `h` to

      out[r, c] = ( sum_k h[r, k] * ws[k, c]  +  sum_k (agg[r, k] * inv[r]) * wn[k, c] ) + b[c]

  where `agg[r, ·]` is the sum of the rows of `h` over the in-neighbours of node `r` and `inv[r]` the reciprocal of
  its in-degree (a degree below one counted as one). The first layer's output is rectified (the larger of the value
  and zero) before it is the second layer's input; the second layer's is the result.

  The reference computes all of it with whole-array host operations. The kernel's program computes the neighbour
  sums and the reciprocal in-degree with the SAME host operations, and each layer's matrix products, sum, bias and
  rectifier inside a launch that walks the rows 5000 at a time. So the two sides differ only in how the dense part is
  tiled: a row of a layer depends on that row of its inputs alone, the 20 tiles cover every row, and each matrix
  product is the same sum over the 128 shared features on both sides, read entry by entry. No term is regrouped and
  nothing is cancelled, so no law of the extended reals beyond reading each operation at an index is used, and the
  inputs' finiteness never enters.

  Where the pieces are: the layer function (Proof/SageSpec); one tile's value, entry by entry (Proof/SageTile, over
  Proof/LibColumnBroadcast); what each launch leaves in its output array, at whatever it finds (Proof/SageRegion0,
  Proof/SageRegion1); the kernel program's run with its result array named (Proof/SageRun) and that array followed
  back to the arguments (Proof/SageHost); the reference's result (Proof/SageReference); the claims (Proof/SageClaims).
-/
import proofs.«161718_j77506979824092_1_alg».proof.Defs
import proofs.«161718_j77506979824092_1_alg».proof.Proof.SageClaims
import proofs.«161718_j77506979824092_1_alg».proof.Proof.Gen.Kernel
import proofs.«161718_j77506979824092_1_alg».proof.Proof.Gen.KernelIdeal
import proofs.«161718_j77506979824092_1_alg».proof.Proof.Gen.ReferenceIdeal
import proofs.«161718_j77506979824092_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
